-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2 : Shape := ⟨3, ![64, 512, 2]⟩
abbrev S1x2x2048 : Shape := ⟨3, ![1, 2, 2048]⟩
abbrev S_ : Shape := ⟨0, ![]⟩

class Facts : Prop where
  bcast_S_S64x512x2 : S_.BroadcastsInDim S64x512x2 (![] : Fin 0 → Fin S64x512x2.rank)
  reducesTo_S64x512x2_S_d0_1_2 : S64x512x2.ReducesTo [0, 1, 2] S_
  h_S_ : 0 < S_.numel
  bcast_S_S1x2x2048 : S_.BroadcastsInDim S1x2x2048 (![] : Fin 0 → Fin S1x2x2048.rank)
  reducesTo_S1x2x2048_S_d0_1_2 : S1x2x2048.ReducesTo [0, 1, 2] S_

variable [Facts]

def fn {F : FTy → Type} [FloatOps F] (main_arg0 : FVec F S64x512x2 .f32) (main_arg1 : FVec F S1x2x2048 .f32) : IVec S_ 1 :=
  let main_v0 : FVec F S64x512x2 .f32 := Host.absf main_arg0
  let main_cst : FVec F S_ .f32 := constant S_ .f32 0x7F800000#32
  let main_v1 : FVec F S64x512x2 .f32 := broadcastInDim S64x512x2 ![] bcast_S_S64x512x2 main_cst
  let main_v2 : IVec S64x512x2 1 := cmpf .olt main_v0 main_v1
  let main_c : IVec S_ 1 := constantI S_ 1 1#1
  let main_v3 : IVec S_ 1 := (fun x v => Host.reduce IntOp.andi x v reducesTo_S64x512x2_S_d0_1_2 h_S_) main_v2 main_c
  let main_v4 : FVec F S1x2x2048 .f32 := Host.absf main_arg1
  let main_cst_0 : FVec F S_ .f32 := constant S_ .f32 0x7F800000#32
  let main_v5 : FVec F S1x2x2048 .f32 := broadcastInDim S1x2x2048 ![] bcast_S_S1x2x2048 main_cst_0
  let main_v6 : IVec S1x2x2048 1 := cmpf .olt main_v4 main_v5
  let main_c_1 : IVec S_ 1 := constantI S_ 1 1#1
  let main_v7 : IVec S_ 1 := (fun x v => Host.reduce IntOp.andi x v reducesTo_S1x2x2048_S_d0_1_2 h_S_) main_v6 main_c_1
  let main_v8 : IVec S_ 1 := andi main_v3 main_v7
  main_v8
-- ==== Kernel.lean ====
abbrev S64x512x2 : Shape := ⟨3, ![64, 512, 2]⟩
abbrev S1x2x2048 : Shape := ⟨3, ![1, 2, 2048]⟩
abbrev S64x1 : Shape := ⟨2, ![64, 1]⟩
abbrev S8x32x2 : Shape := ⟨3, ![8, 32, 2]⟩
abbrev S8x1 : Shape := ⟨2, ![8, 1]⟩
abbrev S2x2048 : Shape := ⟨2, ![2, 2048]⟩
abbrev S8x32x1 : Shape := ⟨3, ![8, 32, 1]⟩
abbrev S8x32 : Shape := ⟨2, ![8, 32]⟩
abbrev S1x2048 : Shape := ⟨2, ![1, 2048]⟩
abbrev S2048 : Shape := ⟨1, ![2048]⟩
abbrev S1x1x2048 : Shape := ⟨3, ![1, 1, 2048]⟩
abbrev S8x32x2048 : Shape := ⟨3, ![8, 32, 2048]⟩
abbrev S8 : Shape := ⟨1, ![8]⟩

abbrev nBuf : Space → Nat
  | .hbm => 3
  | .vmem => 5
  | .smem => 0
  | _ => 0

abbrev bufTy : (tb : Table) → Fin (tcTables nBuf tb) → BufTy
  | .hbm, ⟨0, _⟩ => ⟨S64x512x2, .f32⟩
  | .hbm, ⟨1, _⟩ => ⟨S1x2x2048, .f32⟩
  | .hbm, ⟨2, _⟩ => ⟨S64x1, .f32⟩
  | .local _ .vmem, ⟨0, _⟩ => ⟨S8x32x2, .f32⟩
  | .local _ .vmem, ⟨1, _⟩ => ⟨S8x32x2, .f32⟩
  | .local _ .vmem, ⟨2, _⟩ => ⟨S1x2x2048, .f32⟩
  | .local _ .vmem, ⟨3, _⟩ => ⟨S8x1, .f32⟩
  | .local _ .vmem, ⟨4, _⟩ => ⟨S8x1, .f32⟩
  | _, _ => ⟨S64x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x1_S8x1_0_0 : ∀ a, (![0, 0] : Fin 2 → Nat) a + S8x1.size a ≤ S8x1.size a
  h_S8x1 : 0 < S8x1.numel
  inb_S8x32x2_S8x32x2_0_0_0 : ∀ a, (![0, 0, 0] : Fin 3 → Nat) a + S8x32x2.size a ≤ S8x32x2.size a
  h_S8x32x2 : 0 < S8x32x2.numel
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  slices_S8x32x2_o0_0_0_S8x32x1 : S8x32x2.Slices ![0, 0, 0] S8x32x1
  shapeCasts_S8x32x1_S8x32 : S8x32x1.ShapeCasts S8x32
  slices_S8x32x2_o0_0_1_S8x32x1 : S8x32x2.Slices ![0, 0, 1] S8x32x1
  slices_S2x2048_o0_0_S1x2048 : S2x2048.Slices ![0, 0] S1x2048
  shapeCasts_S1x2048_S2048 : S1x2048.ShapeCasts S2048
  slices_S2x2048_o1_0_S1x2048 : S2x2048.Slices ![1, 0] S1x2048
  shapeCasts_S8x32_S8x32x1 : S8x32.ShapeCasts S8x32x1
  shapeCasts_S2048_S1x1x2048 : S2048.ShapeCasts S1x1x2048
  broadcasts_S8x32x1_S8x32x2048 : S8x32x1.Broadcasts S8x32x2048
  broadcasts_S1x1x2048_S8x32x2048 : S1x1x2048.Broadcasts S8x32x2048
  reduces_S8x32x2048_S8x32 : S8x32x2048.Reduces [2] S8x32
  reduces_S8x32_S8 : S8x32.Reduces [1] S8
  shapeCasts_S8_S8x1 : S8.ShapeCasts S8x1
  shapeCasts_S8x1_S8x1 : S8x1.ShapeCasts S8x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x2.size a ≤ S64x512x2.size a
  hwx0_0 : ∀ i : grid0.Coords, EltTy.bits .f32 = 32 ∨ (Rect.block (s := S64x512x2) S8x32x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2x2048.size a ≤ S1x2x2048.size a
  hwx0_1 : ∀ i : grid0.Coords, EltTy.bits .f32 = 32 ∨ (Rect.block (s := S1x2x2048) S1x2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

abbrev win0_0 : Pipeline.Window sig grid0 :=
  Pipeline.Window.ofSpec (Memref.whole main_arg0) S8x32x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x2 : Shape := ⟨3, ![64, 512, 2]⟩
abbrev S1x2x2048 : Shape := ⟨3, ![1, 2, 2048]⟩
abbrev S64x512x2x1 : Shape := ⟨4, ![64, 512, 2, 1]⟩
abbrev S1x1x2x2048 : Shape := ⟨4, ![1, 1, 2, 2048]⟩
abbrev S64x512x2x2048 : Shape := ⟨4, ![64, 512, 2, 2048]⟩
abbrev S_ : Shape := ⟨0, ![]⟩
abbrev S64x512x1x2048 : Shape := ⟨4, ![64, 512, 1, 2048]⟩
abbrev S64x512x2048 : Shape := ⟨3, ![64, 512, 2048]⟩
abbrev S64x512 : Shape := ⟨2, ![64, 512]⟩
abbrev S64 : Shape := ⟨1, ![64]⟩
abbrev S64x1 : Shape := ⟨2, ![64, 1]⟩

abbrev nBuf : Space → Nat
  | .hbm => 40
  | .vmem => 0
  | .smem => 0
  | _ => 0

abbrev bufTy : (tb : Table) → Fin (tcTables nBuf tb) → BufTy
  | .hbm, ⟨0, _⟩ => ⟨S64x512x2, .f32⟩
  | .hbm, ⟨1, _⟩ => ⟨S1x2x2048, .f32⟩
  | .hbm, ⟨2, _⟩ => ⟨S64x512x2x1, .f32⟩
  | .hbm, ⟨3, _⟩ => ⟨S1x1x2x2048, .f32⟩
  | .hbm, ⟨4, _⟩ => ⟨S64x512x2x2048, .f32⟩
  | .hbm, ⟨5, _⟩ => ⟨S64x512x2x2048, .f32⟩
  | .hbm, ⟨6, _⟩ => ⟨S64x512x2x2048, .f32⟩
  | .hbm, ⟨7, _⟩ => ⟨S_, .f32⟩
  | .hbm, ⟨8, _⟩ => ⟨S64x512x2x2048, .f32⟩
  | .hbm, ⟨9, _⟩ => ⟨S64x512x2x2048, .f32⟩
  | .hbm, ⟨10, _⟩ => ⟨S64x512x2x2048, .f32⟩
  | .hbm, ⟨11, _⟩ => ⟨S64x512x2x2048, .f32⟩
  | .hbm, ⟨12, _⟩ => ⟨S_, .f32⟩
  | .hbm, ⟨13, _⟩ => ⟨S64x512x2x2048, .f32⟩
  | .hbm, ⟨14, _⟩ => ⟨S64x512x2x2048, .f32⟩
  | .hbm, ⟨15, _⟩ => ⟨S_, .f32⟩
  | .hbm, ⟨16, _⟩ => ⟨S64x512x2x2048, .f32⟩
  | .hbm, ⟨17, _⟩ => ⟨S64x512x2x2048, .f32⟩
  | .hbm, ⟨18, _⟩ => ⟨S_, .f32⟩
  | .hbm, ⟨19, _⟩ => ⟨S64x512x2x2048, .f32⟩
  | .hbm, ⟨20, _⟩ => ⟨S64x512x2x2048, .f32⟩
  | .hbm, ⟨21, _⟩ => ⟨S64x512x2x2048, .f32⟩
  | .hbm, ⟨22, _⟩ => ⟨S64x512x2x2048, .f32⟩
  | .hbm, ⟨23, _⟩ => ⟨S_, .f32⟩
  | .hbm, ⟨24, _⟩ => ⟨S64x512x2x2048, .f32⟩
  | .hbm, ⟨25, _⟩ => ⟨S64x512x2x2048, .f32⟩
  | .hbm, ⟨26, _⟩ => ⟨S_, .f32⟩
  | .hbm, ⟨27, _⟩ => ⟨S64x512x2x2048, .f32⟩
  | .hbm, ⟨28, _⟩ => ⟨S64x512x2x2048, .f32⟩
  | .hbm, ⟨29, _⟩ => ⟨S64x512x2x2048, .f32⟩
  | .hbm, ⟨30, _⟩ => ⟨S64x512x1x2048, .f32⟩
  | .hbm, ⟨31, _⟩ => ⟨S64x512x2048, .f32⟩
  | .hbm, ⟨32, _⟩ => ⟨S64x512x1x2048, .f32⟩
  | .hbm, ⟨33, _⟩ => ⟨S64x512x2048, .f32⟩
  | .hbm, ⟨34, _⟩ => ⟨S64x512x2048, .f32⟩
  | .hbm, ⟨35, _⟩ => ⟨S_, .f32⟩
  | .hbm, ⟨36, _⟩ => ⟨S64x512, .f32⟩
  | .hbm, ⟨37, _⟩ => ⟨S_, .f32⟩
  | .hbm, ⟨38, _⟩ => ⟨S64, .f32⟩
  | .hbm, ⟨39, _⟩ => ⟨S64x1, .f32⟩
  | _, _ => ⟨S64x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S64x512x2_S64x512x2x1_0_1_2 : S64x512x2.BroadcastsInDim S64x512x2x1 (![0, 1, 2] : Fin 3 → Fin S64x512x2x1.rank)
  bcast_S1x2x2048_S1x1x2x2048_1_2_3 : S1x2x2048.BroadcastsInDim S1x1x2x2048 (![1, 2, 3] : Fin 3 → Fin S1x1x2x2048.rank)
  bcast_S64x512x2x1_S64x512x2x2048_0_1_2_3 : S64x512x2x1.BroadcastsInDim S64x512x2x2048 (![0, 1, 2, 3] : Fin 4 → Fin S64x512x2x2048.rank)
  bcast_S1x1x2x2048_S64x512x2x2048_0_1_2_3 : S1x1x2x2048.BroadcastsInDim S64x512x2x2048 (![0, 1, 2, 3] : Fin 4 → Fin S64x512x2x2048.rank)
  bcast_S_S64x512x2x2048 : S_.BroadcastsInDim S64x512x2x2048 (![] : Fin 0 → Fin S64x512x2x2048.rank)
  slices_S64x512x2x2048_S64x512x1x2048_0_0_0_0 : S64x512x2x2048.Slices ![0, 0, 0, 0] S64x512x1x2048
  shapeCasts_S64x512x1x2048_S64x512x2048 : S64x512x1x2048.ShapeCasts S64x512x2048
  slices_S64x512x2x2048_S64x512x1x2048_0_0_1_0 : S64x512x2x2048.Slices ![0, 0, 1, 0] S64x512x1x2048
  reducesTo_S64x512x2048_S64x512_d2 : S64x512x2048.ReducesTo [2] S64x512
  h_S_ : 0 < S_.numel
  reducesTo_S64x512_S64_d1 : S64x512.ReducesTo [1] S64
  bcast_S64_S64x1_0 : S64.BroadcastsInDim S64x1 (![0] : Fin 1 → Fin S64x1.rank)

variable [Facts₀]

class Facts : Prop extends Facts₀ where

variable [Facts]
-- ==== Proof.Spec.lean ====
/-
  The function both programs compute, stated once over the extended reals.

  For a batch row `n`, a position `l` and a forbidden point `f`, each of the two channels contributes the
  bump `σ(10·d) · σ(−10·d)` of the difference `d = A[n, l, ch] − B[0, ch, f]` (σ the logistic function); a cell is
  the smaller of the two bumps, a position's value the largest cell over all `f` (from −∞), and the result at row `n`
  the smallest position value over all `l` (from +∞).

  The kernel visits the 512 positions in sixteen consecutive blocks of 32, taking each block's minimum and keeping a
  running minimum across the blocks; that such a running minimum is the minimum over all 512 positions is
  Proof/LibRunningMin.lean.
-/
import Idealize.ShloMosaic.PureOps.Ideal.Laws
import Idealize.ShloMosaic.Lib.ValueIdx

noncomputable section

namespace Cert.PairMin

open Idealize.ShloMosaic Idealize.ShloMosaic.ValueIdx

/-- The bump `σ(10·d) · σ(−10·d)`, its two slopes kept as the f32 words the programs print. -/
def bump (d : EReal) : EReal :=
  Ideal.logistic (Ideal.ofBits .f32 0x41200000#32 * d) * Ideal.logistic (Ideal.ofBits .f32 0xC1200000#32 * d)

/-- A cell: the smaller of the two channels' bumps at (n, l, f). -/
def cell (A : (⟨3, ![64, 512, 2]⟩ : Shape).Idx → EReal) (B : (⟨3, ![1, 2, 2048]⟩ : Shape).Idx → EReal)
    (n : Fin 64) (l : Fin 512) (f : Fin 2048) : EReal :=
  min (bump (A (ix3 n l 0) - B (ix3 0 0 f))) (bump (A (ix3 n l 1) - B (ix3 0 1 f)))

/-- A position's value: the largest cell over the forbidden points, from −∞. -/
def rowMax (A : (⟨3, ![64, 512, 2]⟩ : Shape).Idx → EReal) (B : (⟨3, ![1, 2, 2048]⟩ : Shape).Idx → EReal)
    (n : Fin 64) (l : Fin 512) : EReal :=
  (Finset.univ : Finset (Fin 2048)).fold max (Ideal.ofBits .f32 0xFF800000#32) (fun f => cell A B n l f)

/-- The result at row `n`: the smallest position value, from +∞. -/
def result (A : (⟨3, ![64, 512, 2]⟩ : Shape).Idx → EReal) (B : (⟨3, ![1, 2, 2048]⟩ : Shape).Idx → EReal)
    (n : Fin 64) : EReal :=
  (Finset.univ : Finset (Fin 512)).fold min (Ideal.ofBits .f32 0x7F800000#32) (fun l => rowMax A B n l)

end Cert.PairMin

end
-- ==== Proof.RefRead.lean ====
/-
  The reference, read index by index at the ideal values, is the function of Spec.lean.

  The reference forms the four-dimensional array of differences `A[n, l, ch] − B[0, ch, f]`, applies the bump
  (the logistic function written out as `1 / (1 + e^(−x))`, which at the ideal values IS the logistic function),
  takes the two channel slices, their elementwise minimum, the maximum over `f` from −∞ and the minimum over `l`
  from +∞. Each reduction over one axis is a fold over that axis's coordinates, in any order.
-/
import proofs.«103819_j23665269801120_1_alg».proof.Proof.Gen.ReferenceIdeal.Read
import proofs.«103819_j23665269801120_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.PairMin

variable (x0 : FVec Ideal S64x512x2 .f32) (x1 : FVec Ideal S1x2x2048 .f32)

/-! ## Where the layout operations send an index -/

theorem idx_A (n : Fin 64) (l : Fin 512) (ch : Fin 2) (f : Fin 2048) :
    idx_main_v0 (idx_main_v2 (ix4 n l ch f)) = ix3 n l ch :=
  funext fun a => Fin.ext (by match a with | ⟨0, _⟩ => rfl | ⟨1, _⟩ => rfl | ⟨2, _⟩ => rfl)

theorem idx_B (n : Fin 64) (l : Fin 512) (ch : Fin 2) (f : Fin 2048) :
    idx_main_v1 (idx_main_v3 (ix4 n l ch f)) = ix3 0 ch f :=
  funext fun a => Fin.ext (by match a with | ⟨0, _⟩ => rfl | ⟨1, _⟩ => rfl | ⟨2, _⟩ => rfl)

theorem idx_ch0 (n : Fin 64) (l : Fin 512) (f : Fin 2048) :
    idx_main_v22 (idx_main_v23 (ix3 n l f)) = ix4 n l 0 f := by
  have hn := n.isLt; have hl := l.isLt; have hf := f.isLt
  funext a; apply Fin.ext
  match a with
  | ⟨0, _⟩ => show ((n.val * 512 + l.val) * 2048 + f.val) / 1048576 = n.val; omega
  | ⟨1, _⟩ => show ((n.val * 512 + l.val) * 2048 + f.val) / 2048 % 512 = l.val; omega
  | ⟨2, _⟩ => rfl
  | ⟨3, _⟩ => show ((n.val * 512 + l.val) * 2048 + f.val) % 2048 = f.val; omega

theorem idx_ch1 (n : Fin 64) (l : Fin 512) (f : Fin 2048) :
    idx_main_v24 (idx_main_v25 (ix3 n l f)) = ix4 n l 1 f := by
  have hn := n.isLt; have hl := l.isLt; have hf := f.isLt
  funext a; apply Fin.ext
  match a with
  | ⟨0, _⟩ => show ((n.val * 512 + l.val) * 2048 + f.val) / 1048576 = n.val; omega
  | ⟨1, _⟩ => show ((n.val * 512 + l.val) * 2048 + f.val) / 2048 % 512 = l.val; omega
  | ⟨2, _⟩ => rfl
  | ⟨3, _⟩ => show ((n.val * 512 + l.val) * 2048 + f.val) % 2048 = f.val; omega

/-! ## The bump of a difference -/

/-- The product of the two written-out logistic functions at (n, l, ch, f) is the bump of `A[n, l, ch] − B[0, ch, f]`. -/
theorem bump_at (n : Fin 64) (l : Fin 512) (ch : Fin 2) (f : Fin 2048) :
    val_main_v21 (F := Ideal) x0 x1 (ix4 n l ch f) = bump (x0 (ix3 n l ch) - x1 (ix3 0 ch f)) := by
  rw [val_main_v21_apply, val_main_v12_apply, val_main_v11_apply, val_main_cst_1_apply, val_main_v10_apply,
    val_main_v9_apply, val_main_cst_0_apply, val_main_v8_apply, val_main_v7_apply, val_main_v6_apply,
    val_main_v5_apply, val_main_cst_apply, val_main_v20_apply, val_main_v19_apply, val_main_cst_4_apply,
    val_main_v18_apply, val_main_v17_apply, val_main_cst_3_apply, val_main_v16_apply, val_main_v15_apply,
    val_main_v14_apply, val_main_v13_apply, val_main_cst_2_apply, val_main_v4_apply, val_main_v2_apply,
    val_main_v0_apply, val_main_v3_apply, val_main_v1_apply, idx_A, idx_B]
  simp only [Ideal.mulf_def, Ideal.hostDivf_def, Ideal.addf_def, Ideal.hostUnary_exp_def, Ideal.hostNegf_def,
    Ideal.negf_def, Ideal.subf_def, Ideal.ofBits_def, Ideal.ofBits_one_f32]
  rfl

/-! ## The cell, the maximum over `f`, the minimum over `l` -/

theorem cell_at (n : Fin 64) (l : Fin 512) (f : Fin 2048) :
    val_main_v26 (F := Ideal) x0 x1 (ix3 n l f) = cell x0 x1 n l f := by
  rw [val_main_v26_apply, val_main_v23_apply, val_main_v22_apply, val_main_v25_apply, val_main_v24_apply,
    idx_ch0, idx_ch1, bump_at, bump_at]
  rfl

theorem red_f : S64x512x2048.Reduces [2] S64x512 := by decide
theorem red_l : S64x512.Reduces [1] S64 := by decide

theorem lift_f (n : Fin 64) (l : Fin 512) (f : Fin 2048) : red_f.lift (ix2 n l) f = ix3 n l f :=
  funext fun a => Fin.ext (by match a with | ⟨0, _⟩ => rfl | ⟨1, _⟩ => rfl | ⟨2, _⟩ => rfl)

theorem lift_l (n : Fin 64) (l : Fin 512) : red_l.lift (ix1 n) l = ix2 n l :=
  funext fun a => Fin.ext (by match a with | ⟨0, _⟩ => rfl | ⟨1, _⟩ => rfl)

/-- The host's maximum over the forbidden axis at (n, l): the fold of `max` from −∞ over the cells. -/
theorem rowMax_at (n : Fin 64) (l : Fin 512) :
    val_main_v27 (F := Ideal) x0 x1 (ix2 n l) = rowMax x0 x1 n l := by
  unfold val_main_v27
  rw [Host.reduce_eq_fold_single _ _ _ reducesTo_S64x512x2048_S64x512_d2 red_f h_S_]
  unfold rowMax
  refine Finset.fold_congr fun f _ => ?_
  rw [Function.comp_apply]
  exact (congrArg (val_main_v26 (F := Ideal) x0 x1) (lift_f n l f)).trans (cell_at x0 x1 n l f)

/-- The host's minimum over the positions at `n`: the fold of `min` from +∞ over the positions' values. -/
theorem result_at (n : Fin 64) :
    val_main_v28 (F := Ideal) x0 x1 (ix1 n) = result x0 x1 n := by
  unfold val_main_v28
  rw [Host.reduce_eq_fold_single _ _ _ reducesTo_S64x512_S64_d1 red_l h_S_]
  unfold result
  refine Finset.fold_congr fun l _ => ?_
  rw [Function.comp_apply]
  exact (congrArg (val_main_v27 (F := Ideal) x0 x1) (lift_l n l)).trans (rowMax_at x0 x1 n l)

/-- The reference's result at (n, 0) is the function of Spec.lean at `n`. -/
theorem reference_at (n : Fin 64) (u : Fin 1) :
    val_main_v29 (F := Ideal) x0 x1 (ix2 n u) = result x0 x1 n := by
  rw [val_main_v29_apply, show idx_main_v29 (ix2 n u) = ix1 n from
    funext fun a => Fin.ext (by match a with | ⟨0, _⟩ => rfl), result_at]

end Cert.ReferenceIdeal.RefValue

end
-- ==== Proof.LibRunningMin.lean ====
/-
  A running minimum over consecutive blocks is the minimum over everything, and a kernel's minimum over one axis is
  a fold of `min`.

  A sequence `r 0, r 1, …` is visited in blocks of `B` consecutive entries. Each block's minimum is taken from a
  start value `T`; the first block's minimum is combined with `T` and every later block's with what the blocks before
  left. Since `c ≤ min x y ↔ c ≤ x ∧ c ≤ y`, the lower bounds of the running minimum after block `k` are exactly the
  lower bounds of `T` and of every entry below `B·(k+1)`; these are also the lower bounds of the one minimum from
  `T` over those entries, so the two are equal (`runMin_eq`). This is the shape of a grid axis that revisits an output
  block and keeps a minimum in it, against a reference that reduces the whole axis at once. It holds in any linear
  order, whatever `T` is (`T` need not be the top element).

  `multiReduction_minimumf_single`: at the ideal values a kernel's `minimumf` reduction over ONE axis, read at a result
  index, is the fold of `min` from the accumulator's value over that axis's coordinates.
-/
import Idealize.ShloMosaic.PureOps.Ideal.Laws

noncomputable section

namespace Idealize.ShloMosaic.RunningMin

variable {β : Type*} [LinearOrder β]

/-- The minimum, from `T`, over block `j`'s `B` entries of a sequence `r`. -/
def blockMin (B : ℕ) (T : β) (r : ℕ → β) (j : ℕ) : β :=
  (Finset.univ : Finset (Fin B)).fold min T (fun l' => r (B * j + l'.val))

/-- The running minimum after block `k`: the first block's minimum is taken against `T`, every later block's
    against what the blocks before left. -/
def runMin (B : ℕ) (T : β) (r : ℕ → β) : ℕ → β
  | 0 => min T (blockMin B T r 0)
  | k + 1 => min (runMin B T r k) (blockMin B T r (k + 1))

theorem runMin_zero (B : ℕ) (T : β) (r : ℕ → β) : runMin B T r 0 = min T (blockMin B T r 0) := rfl

theorem runMin_succ (B : ℕ) (T : β) (r : ℕ → β) (k : ℕ) :
    runMin B T r (k + 1) = min (runMin B T r k) (blockMin B T r (k + 1)) := rfl

/-- The lower bounds of a block's minimum: those of `T` and of each of the block's entries. -/
theorem le_blockMin (B : ℕ) (T : β) (r : ℕ → β) (c : β) (j : ℕ) :
    c ≤ blockMin B T r j ↔ c ≤ T ∧ ∀ l, B * j ≤ l → l < B * j + B → c ≤ r l := by
  unfold blockMin
  rw [Finset.le_fold_min]
  constructor
  · rintro ⟨hT, h⟩
    refine ⟨hT, fun l h1 h2 => ?_⟩
    have h3 : c ≤ r (B * j + (l - B * j)) := h ⟨l - B * j, by omega⟩ (Finset.mem_univ _)
    rwa [show B * j + (l - B * j) = l from by omega] at h3
  · rintro ⟨hT, h⟩
    exact ⟨hT, fun x _ => h _ (by omega) (by have := x.isLt; omega)⟩

/-- The lower bounds of the running minimum after block `k`: those of `T` and of every entry below `B·(k+1)`. -/
theorem le_runMin (B : ℕ) (T : β) (r : ℕ → β) (c : β) :
    ∀ k, c ≤ runMin B T r k ↔ c ≤ T ∧ ∀ l, l < B * (k + 1) → c ≤ r l
  | 0 => by
    rw [runMin_zero, le_min_iff, le_blockMin]
    have e0 : B * 0 = 0 := Nat.mul_zero B
    have e1 : B * (0 + 1) = B := by rw [Nat.zero_add, Nat.mul_one]
    constructor
    · rintro ⟨hT, -, h⟩; exact ⟨hT, fun l hl => h l (by omega) (by omega)⟩
    · rintro ⟨hT, h⟩; exact ⟨hT, hT, fun l _ hl => h l (by omega)⟩
  | k + 1 => by
    rw [runMin_succ, le_min_iff, le_runMin B T r c k, le_blockMin]
    have e : B * (k + 1 + 1) = B * (k + 1) + B := Nat.mul_succ B (k + 1)
    constructor
    · rintro ⟨⟨hT, h1⟩, -, h2⟩
      refine ⟨hT, fun l hl => ?_⟩
      by_cases hlt : l < B * (k + 1)
      · exact h1 l hlt
      · exact h2 l (by omega) (by omega)
    · rintro ⟨hT, h⟩
      exact ⟨⟨hT, fun l hl => h l (by omega)⟩, hT, fun l _ hl => h l (by omega)⟩

/-- After block `K` the running minimum is the one minimum, from `T`, over all `N = B·(K+1)` entries. -/
theorem runMin_eq (B : ℕ) (T : β) (r : ℕ → β) (K N : ℕ) (hN : N = B * (K + 1)) :
    runMin B T r K = (Finset.univ : Finset (Fin N)).fold min T (fun l => r l.val) := by
  subst hN
  refine eq_of_forall_le_iff fun c => ?_
  rw [le_runMin, Finset.le_fold_min]
  constructor
  · rintro ⟨hT, h⟩; exact ⟨hT, fun x _ => h x.val x.isLt⟩
  · rintro ⟨hT, h⟩; exact ⟨hT, fun l hl => h ⟨l, hl⟩ (Finset.mem_univ _)⟩

end Idealize.ShloMosaic.RunningMin

namespace Idealize.ShloMosaic.Ideal

/-- A kernel's minimum over ONE axis at the ideal values: the fold of `min`, from the accumulator's value, over that
    axis's coordinates (`Shape.Reduces.lift`: the result index with the coordinate inserted on the dropped axis). -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal

end
-- ==== Proof.KernelPay.lean ====
/-
  The kernel body's arithmetic, read at an index at the ideal values.

  From an [8, 32, 2] block `x` of `A` and the whole [1, 2, 2048] array `y = B`, the body forms, for each channel,
  the [8, 32, 2048] array of differences `x[p, l, ch] − y[0, ch, f]` (a column of the block and a row of `B`, each
  re-laid and repeated along the other's axes), applies the bump to each, takes the smaller channel, the maximum over
  `f` from −∞ and the minimum over the block's 32 positions from +∞; the result is stored as an [8, 1] column. The
  store's value is the minimum of that column with what the output buffer held (+∞ at a run's first block).
-/
import proofs.«103819_j23665269801120_1_alg».proof.Proof.Gen.KernelIdeal.Skeleton
import proofs.«103819_j23665269801120_1_alg».proof.Proof.Spec
import proofs.«103819_j23665269801120_1_alg».proof.Proof.LibRunningMin
import Idealize.ShloMosaic.Lib.Pipeline.Value

noncomputable section

namespace Cert.KernelIdeal.Pay

open Cert.KernelIdeal Cert.KernelIdeal.Gen Idealize.ShloMosaic Idealize.ShloMosaic.ValueIdx
open Cert.PairMin

/-! ## The re-laid column of the block and row of `B` -/

/-- Channel `ch`'s column of the block, as an [8, 32, 2048] array: entry (p, l, f) is `x[p, l, ch]`. -/
theorem blockColumn_apply {α : Type} (x : S8x32x2.Idx → α) (ch : Fin 2) (off : Fin 3 → ℕ)
    (o0 : off 0 = 0) (o1 : off 1 = 0) (o2 : off 2 = ch.val)
    (hs : S8x32x2.Slices off S8x32x1) (h1 : S8x32x1.ShapeCasts S8x32) (h2 : S8x32.ShapeCasts S8x32x1)
    (hb : S8x32x1.Broadcasts S8x32x2048) (p : Fin 8) (l : Fin 32) (f : Fin 2048) :
    broadcastTo S8x32x2048 (shapeCast S8x32x1 (shapeCast S8x32 (extractStridedSlice S8x32x1 off x hs) h1) h2) hb (ix3 p l f)
      = x (ix3 p l ch) := by
  refine (broadcastTo_apply _ hb (ix3 p l f) (ix3 p l (0 : Fin 1)) fun a => ?_).trans ?_
  · match a with
    | ⟨0, _⟩ => show p.val = if (8 : ℕ) = 1 then 0 else p.val; rw [if_neg (by decide)]
    | ⟨1, _⟩ => show l.val = if (32 : ℕ) = 1 then 0 else l.val; rw [if_neg (by decide)]
    | ⟨2, _⟩ => show 0 = if (1 : ℕ) = 1 then 0 else f.val; rw [if_pos rfl]
  refine (shapeCast_apply _ h2 (ix3 p l (0 : Fin 1)) (ix2 p l) ?_).trans ?_
  · rw [Shape.rowMajor_val_two, Shape.rowMajor_val_three]
    show p.val * 32 + l.val = (p.val * 32 + l.val) * 1 + 0
    omega
  refine (shapeCast_apply _ h1 (ix2 p l) (ix3 p l (0 : Fin 1)) ?_).trans ?_
  · rw [Shape.rowMajor_val_two, Shape.rowMajor_val_three]
    show (p.val * 32 + l.val) * 1 + 0 = p.val * 32 + l.val
    omega
  refine extractStridedSlice_apply off x hs (ix3 p l (0 : Fin 1)) (ix3 p l ch) fun a => ?_
  match a with
  | ⟨0, _⟩ => show p.val = off 0 + p.val; omega
  | ⟨1, _⟩ => show l.val = off 1 + l.val; omega
  | ⟨2, _⟩ => show ch.val = off 2 + 0; omega

/-- Channel `ch`'s row of `B`, as an [8, 32, 2048] array: entry (p, l, f) is `y[0, ch, f]`. -/
theorem forbiddenRow_apply {α : Type} (y : S1x2x2048.Idx → α) (ch : Fin 2) (off : Fin 2 → ℕ)
    (o0 : off 0 = ch.val) (o1 : off 1 = 0)
    (h0 : S1x2x2048.ShapeCasts S2x2048) (hs : S2x2048.Slices off S1x2048) (h1 : S1x2048.ShapeCasts S2048)
    (h2 : S2048.ShapeCasts S1x1x2048) (hb : S1x1x2048.Broadcasts S8x32x2048) (p : Fin 8) (l : Fin 32) (f : Fin 2048) :
    broadcastTo S8x32x2048 (shapeCast S1x1x2048 (shapeCast S2048 (extractStridedSlice S1x2048 off (shapeCast S2x2048 y h0) hs) h1) h2) hb
        (ix3 p l f)
      = y (ix3 0 ch f) := by
  have hch := ch.isLt
  have hf := f.isLt
  refine (broadcastTo_apply _ hb (ix3 p l f) (ix3 (0 : Fin 1) (0 : Fin 1) f) fun a => ?_).trans ?_
  · match a with
    | ⟨0, _⟩ => show 0 = if (1 : ℕ) = 1 then 0 else p.val; rw [if_pos rfl]
    | ⟨1, _⟩ => show 0 = if (1 : ℕ) = 1 then 0 else l.val; rw [if_pos rfl]
    | ⟨2, _⟩ => show f.val = if (2048 : ℕ) = 1 then 0 else f.val; rw [if_neg (by decide)]
  refine (shapeCast_apply _ h2 (ix3 (0 : Fin 1) (0 : Fin 1) f) (ix1 f) ?_).trans ?_
  · rw [Shape.rowMajor_val_one, Shape.rowMajor_val_three]
    show f.val = (0 * 1 + 0) * 2048 + f.val
    omega
  refine (shapeCast_apply _ h1 (ix1 f) (ix2 (0 : Fin 1) f) ?_).trans ?_
  · rw [Shape.rowMajor_val_one, Shape.rowMajor_val_two]
    show 0 * 2048 + f.val = f.val
    omega
  refine (extractStridedSlice_apply off _ hs (ix2 (0 : Fin 1) f) (ix2 ch f) fun a => ?_).trans ?_
  · match a with
    | ⟨0, _⟩ => show ch.val = off 0 + 0; omega
    | ⟨1, _⟩ => show f.val = off 1 + f.val; omega
  refine shapeCast_apply y h0 (ix2 ch f) (ix3 (0 : Fin 1) ch f) ?_
  rw [Shape.rowMajor_val_two, Shape.rowMajor_val_three]
  show (0 * 2 + ch.val) * 2048 + f.val = ch.val * 2048 + f.val
  omega

/-! ## The two reductions and the column -/

/-- Row `p` of the body's result: over the block's 32 positions, from +∞, the minimum of each position's maximum over
    `f`, from −∞, of an [8, 32, 2048] array `v`. -/
theorem blockResult_apply (v : FVec Ideal S8x32x2048 .f32) (accMax accMin : BitVec 32)
    (hf : S8x32x2048.Reduces [2] S8x32) (hl : S8x32.Reduces [1] S8) (hc : S8.ShapeCasts S8x1)
    (hφ hφ' : FKind.Formats .f32) (haMax : accMax = FKind.maximumf.neutral .f32 hφ)
    (haMin : accMin = FKind.minimumf.neutral .f32 hφ') (p : Fin 8) (u : Fin 1) :
    shapeCast S8x1 (multiReduction .minimumf [1] S8 (multiReduction .maximumf [2] S8x32 v accMax hf hφ haMax) accMin hl hφ' haMin) hc
        (ix2 p u)
      = (Finset.univ : Finset (Fin 32)).fold min (Ideal.ofBits .f32 accMin) (fun l =>
          (Finset.univ : Finset (Fin 2048)).fold max (Ideal.ofBits .f32 accMax) (fun f => v (ix3 p l f))) := by
  have hu : u.val = 0 := by omega
  refine (shapeCast_apply _ hc (ix2 p u) (ix1 p) ?_).trans ?_
  · rw [Shape.rowMajor_val_one, Shape.rowMajor_val_two]
    show p.val = p.val * 1 + u.val
    omega
  refine (Ideal.multiReduction_minimumf_single (s := S8x32) (t := S8) (a := 1) (φ := .f32)
    (multiReduction .maximumf [2] S8x32 v accMax hf hφ haMax) accMin hl hφ' haMin (ix1 p)).trans ?_
  refine Finset.fold_congr fun l _ => ?_
  rw [Function.comp_apply]
  have e1 : hl.lift (ix1 p) l = ix2 p l :=
    funext fun a => Fin.ext (by match a with | ⟨0, _⟩ => rfl | ⟨1, _⟩ => rfl)
  rw [e1]
  refine (Ideal.multiReduction_maximumf_single v accMax hf hφ haMax (ix2 p l)).trans ?_
  refine Finset.fold_congr fun f _ => ?_
  rw [Function.comp_apply]
  exact congrArg v (funext fun a => Fin.ext (by match a with | ⟨0, _⟩ => rfl | ⟨1, _⟩ => rfl | ⟨2, _⟩ => rfl))

/-! ## The payloads -/

/-- The logistic function of an array, at an index. -/
theorem logistic_apply {s : Shape} {φ : FTy} (a : FVec Ideal s φ) (i : s.Idx) : logistic a i = Ideal.logistic (a i) := rfl

/-- The smaller channel's bump, from the two channels' minuends and subtrahends as [8, 32, 2048] arrays. -/
theorem cells_apply (a0 b0 a1 b1 : FVec Ideal S8x32x2048 .f32) (i : S8x32x2048.Idx) :
    minimumf
        (mulf (logistic (mulf (broadcast S8x32x2048 (Scalar.ofBits (F := Ideal) .f32 0x41200000#32)) (subf a0 b0)))
          (logistic (mulf (broadcast S8x32x2048 (Scalar.ofBits (F := Ideal) .f32 0xC1200000#32)) (subf a0 b0))))
        (mulf (logistic (mulf (broadcast S8x32x2048 (Scalar.ofBits (F := Ideal) .f32 0x41200000#32)) (subf a1 b1)))
          (logistic (mulf (broadcast S8x32x2048 (Scalar.ofBits (F := Ideal) .f32 0xC1200000#32)) (subf a1 b1)))) i
      = min (bump (a0 i - b0 i)) (bump (a1 i - b1 i)) := rfl

/-- The value the body computes from a block `x` of `A` and the array `y = B`, at row `p` of its [8, 1] column. -/
theorem blockValue_apply (x : Vec Ideal S8x32x2 .f32) (y : Vec Ideal S1x2x2048 .f32) (p : Fin 8) (u : Fin 1) :
    k0_pay3 (F := Ideal) x y (ix2 p u)
      = (Finset.univ : Finset (Fin 32)).fold min (Ideal.ofBits .f32 0x7F800000#32) (fun l =>
          (Finset.univ : Finset (Fin 2048)).fold max (Ideal.ofBits .f32 0xFF800000#32) (fun f =>
            min (bump (x (ix3 p l 0) - y (ix3 0 0 f))) (bump (x (ix3 p l 1) - y (ix3 0 1 f))))) := by
  unfold k0_pay3
  refine (blockResult_apply _ 0xFF800000#32 0x7F800000#32 reduces_S8x32x2048_S8x32 reduces_S8x32_S8 shapeCasts_S8_S8x1
    (.inl rfl) (.inl rfl) rfl rfl p u).trans ?_
  refine Finset.fold_congr fun l _ => ?_
  refine Finset.fold_congr fun f _ => ?_
  refine (cells_apply _ _ _ _ (ix3 p l f)).trans ?_
  rw [blockColumn_apply x 0 ![0, 0, 0] rfl rfl rfl, forbiddenRow_apply y 0 ![0, 0] rfl rfl,
    blockColumn_apply x 1 ![0, 0, 1] rfl rfl rfl, forbiddenRow_apply y 1 ![1, 0] rfl rfl]

/-- The stored value: the smaller of what the buffer held and the block's value. -/
theorem stored_apply (v w : Vec Ideal S8x1 .f32) (i : S8x1.Idx) :
    k0_pay1 (F := Ideal) v w i = min (w i) (v i) := by
  unfold k0_pay1
  rw [shapeCast_self]
  rfl

/-- The reset value: +∞ everywhere. -/
theorem reset_apply (i : S8x1.Idx) : k0_pay2 (F := Ideal) i = Ideal.ofBits .f32 0x7F800000#32 := rfl

end Cert.KernelIdeal.Pay

end
-- ==== Proof.KernelFold.lean ====
/-
  The kernel's output array after the run is the function of Spec.lean.

  Grid point `t = 16·q + j` stages rows `8q … 8q+7` and positions `32j … 32j+31` of `A` and the whole of `B`. Over
  a run `j = 0 … 15` the output buffer holds, at row `p`, first the minimum of +∞ with block 0's value and then the
  minimum of what it held with block `j`'s value: the running minimum over the blocks of the positions' values of row
  `n = 8q + p`. After the sixteenth block that is the minimum over all 512 positions, which is what the run's last
  point writes back to rows `8q … 8q+7` of the output.
-/
import proofs.«103819_j23665269801120_1_alg».proof.Proof.Gen.KernelIdeal.Value
import proofs.«103819_j23665269801120_1_alg».proof.Proof.KernelPay

noncomputable section

namespace Cert.KernelIdeal.Fold

open Cert.KernelIdeal Cert.KernelIdeal.Gen Cert.KernelIdeal.Value Cert.KernelIdeal.Pay
open Idealize.ShloMosaic Idealize.ShloMosaic.TcCoe Idealize.SL.Sem Idealize.ShloMosaic.ValueIdx
open Cert.PairMin Idealize.ShloMosaic.RunningMin

variable (m : (ℓ : Loc nD τ sig) → Buf (Elt Ideal) ℓ)

/-- The two argument arrays as the region finds them, and the two input blocks at a grid point, at their literal types. -/
abbrev arrA (c : Dev nD) : Vec Ideal S64x512x2 .f32 := V m c main_arg0
abbrev arrB (c : Dev nD) : Vec Ideal S1x2x2048 .f32 := V m c main_arg1
abbrev blkA (c : Dev nD) (t : Fin cfg0.N) : Vec Ideal S8x32x2 .f32 := iblk m c 0 t
abbrev blkB (c : Dev nD) (t : Fin cfg0.N) : Vec Ideal S1x2x2048 .f32 := iblk m c 1 t

/-! ## Where a grid point's blocks lie -/

/-- Point `t` stages row block `t / 16` and position block `t % 16` of `A`. -/
theorem index_A : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, _)

/-- Every point stages the whole of `B`. -/
theorem index_B : ∀ t : Fin cfg0.N, win0_1.index t (0 : Fin 3) = 0 ∧ win0_1.index t (1 : Fin 3) = 0
    ∧ win0_1.index t (2 : Fin 3) = 0 :=
  (by decide +kernel : ∀ t : Fin grid0.N, _)

/-- Entry (p, l, ch) of `A`'s block at point `t` is `A[8·(t/16) + p, 32·(t%16) + l, ch]`. -/
theorem blkA_apply (c : Dev nD) (t : Fin cfg0.N) (p : Fin 8) (l : Fin 32) (ch : Fin 2) (n : Fin 64) (pos : Fin 512)
    (hn : n.val = 8 * (t.val / 16) + p.val) (hpos : pos.val = 32 * (t.val % 16) + l.val) :
    blkA m c t (ix3 p l ch) = arrA m c (ix3 n pos ch) := by
  obtain ⟨e0, e1, e2⟩ := index_A t
  show V m c main_arg0 (((cfg0.win 0).blk t).view.emb (ix3 p l ch)) = V m c main_arg0 (ix3 n pos ch)
  refine congrArg _ (funext fun a => Fin.ext ?_)
  match a with
  | ⟨0, _⟩ => show win0_0.index t (0 : Fin 3) * 8 + 1 * p.val = n.val; omega
  | ⟨1, _⟩ => show win0_0.index t (1 : Fin 3) * 32 + 1 * l.val = pos.val; omega
  | ⟨2, _⟩ => show win0_0.index t (2 : Fin 3) * 2 + 1 * ch.val = ch.val; omega

/-- `B`'s block at any point is `B`. -/
theorem blkB_apply (c : Dev nD) (t : Fin cfg0.N) (z : Fin 1) (ch : Fin 2) (f : Fin 2048) :
    blkB m c t (ix3 z ch f) = arrB m c (ix3 z ch f) := by
  obtain ⟨e0, e1, e2⟩ := index_B t
  have hz : z.val = 0 := by omega
  show V m c main_arg1 (((cfg0.win 1).blk t).view.emb (ix3 z ch f)) = V m c main_arg1 (ix3 z ch f)
  refine congrArg _ (funext fun a => Fin.ext ?_)
  match a with
  | ⟨0, _⟩ => show win0_1.index t (0 : Fin 3) * 1 + 1 * z.val = z.val; omega
  | ⟨1, _⟩ => show win0_1.index t (1 : Fin 3) * 2 + 1 * ch.val = ch.val; omega
  | ⟨2, _⟩ => show win0_1.index t (2 : Fin 3) * 2048 + 1 * f.val = f.val; omega

/-! ## One block's value -/

/-- Row `n`'s position values as a sequence (past the 512 positions, +∞: never read). -/
def rowSeq (c : Dev nD) (n : Fin 64) (l : ℕ) : EReal :=
  if hl : l < 512 then rowMax (arrA m c) (arrB m c) n ⟨l, hl⟩ else Ideal.ofBits .f32 0x7F800000#32

/-- At point `t`, row `p` of the body's value is the minimum of row `8·(t/16) + p`'s position values over position
    block `t % 16`. -/
theorem blockValue_eq (c : Dev nD) (t : Fin cfg0.N) (n : Fin 64) (p : Fin 8) (u : Fin 1)
    (hn : n.val = 8 * (t.val / 16) + p.val) :
    k0_pay3 (F := Ideal) (blkA m c t) (blkB m c t) (ix2 p u)
      = blockMin 32 (Ideal.ofBits .f32 0x7F800000#32) (rowSeq m c n) (t.val % 16) := by
  refine (blockValue_apply (blkA m c t) (blkB m c t) p u).trans ?_
  unfold blockMin
  refine Finset.fold_congr fun l _ => ?_
  have hl := l.isLt
  have hlt : 32 * (t.val % 16) + l.val < 512 := by omega
  unfold rowSeq
  rw [dif_pos hlt]
  unfold rowMax
  refine Finset.fold_congr fun f _ => ?_
  unfold cell
  rw [blkA_apply m c t p l 0 n ⟨32 * (t.val % 16) + l.val, hlt⟩ hn rfl,
    blkA_apply m c t p l 1 n ⟨32 * (t.val % 16) + l.val, hlt⟩ hn rfl,
    blkB_apply m c t 0 0 f, blkB_apply m c t 0 1 f]

/-! ## The run's fold -/

/-- Over run `q`, after its block `j` the output buffer's row `p` holds the running minimum of row `8q + p`. -/
theorem acc_eq (c : Dev nD) (q : ℕ) (n : Fin 64) (p : Fin 8) (u : Fin 1) (hn : n.val = 8 * q + p.val) :
    ∀ (j : ℕ) (_ : j < 16) (h : 16 * q + j < cfg0.N),
      Pipeline.accAt (reset2 m c) (step2 m c) (16 * q) j h (ix2 p u)
        = runMin 32 (Ideal.ofBits .f32 0x7F800000#32) (rowSeq m c n) j
  | 0, _, h => by
    rw [Pipeline.accAt_zero]
    show k0_pay1 (F := Ideal) (k0_pay3 (blkA m c ⟨16 * q, h⟩) (blkB m c ⟨16 * q, h⟩)) (k0_pay2 (F := Ideal)) (ix2 p u) = _
    rw [stored_apply, reset_apply, blockValue_eq m c ⟨16 * q, h⟩ n p u (by show n.val = 8 * ((16 * q) / 16) + p.val; omega)]
    rw [runMin_zero, show (⟨16 * q, h⟩ : Fin cfg0.N).val % 16 = 0 from by show (16 * q) % 16 = 0; omega]
  | j + 1, hj, h => by
    rw [Pipeline.accAt_succ]
    show k0_pay1 (F := Ideal) (k0_pay3 (blkA m c ⟨16 * q + (j + 1), h⟩) (blkB m c ⟨16 * q + (j + 1), h⟩))
      (Pipeline.accAt (reset2 m c) (step2 m c) (16 * q) j (Nat.lt_of_succ_lt h)) (ix2 p u) = _
    rw [stored_apply, acc_eq c q n p u hn j (by omega) (Nat.lt_of_succ_lt h),
      blockValue_eq m c ⟨16 * q + (j + 1), h⟩ n p u (by show n.val = 8 * ((16 * q + (j + 1)) / 16) + p.val; omega)]
    rw [runMin_succ, show (⟨16 * q + (j + 1), h⟩ : Fin cfg0.N).val % 16 = j + 1 from by show (16 * q + (j + 1)) % 16 = j + 1; omega]

/-! ## The output array -/

/-- After the run the output holds, at (n, 0), the smallest position value of row `n`. -/
theorem output_at (c : Dev nD) (n : Fin 64) (u : Fin 1) :
    G2 m c (ix2 n u) = result (arrA m c) (arrB m c) n := by
  have hn := n.isLt
  have hu : u.val = 0 := by omega
  have hN : cfg0.N = 128 := N_0
  have hr : run2Of (ix2 n u) = n.val / 8 := by
    show 1 * (n.val / 8 - 0) + 1 * (u.val / 1 - 0) = n.val / 8
    omega
  have hloc : loc2Of (ix2 n u) = ix2 (⟨n.val % 8, by omega⟩ : Fin 8) (⟨u.val % 1, by omega⟩ : Fin 1) :=
    funext fun a => Fin.ext (by match a with | ⟨0, _⟩ => rfl | ⟨1, _⟩ => rfl)
  unfold G2
  have hlt : 16 * run2Of (ix2 n u) + 15 < cfg0.N := by rw [hr, hN]; omega
  rw [dif_pos hlt, hloc]
  refine (acc_eq m c (run2Of (ix2 n u)) n ⟨n.val % 8, by omega⟩ ⟨u.val % 1, by omega⟩
    (by rw [hr]; show n.val = 8 * (n.val / 8) + n.val % 8; omega) 15 (by omega) hlt).trans ?_
  rw [runMin_eq 32 _ _ 15 512 rfl]
  unfold result
  refine Finset.fold_congr fun l _ => ?_
  unfold rowSeq
  rw [dif_pos l.isLt]

end Cert.KernelIdeal.Fold

end
-- ==== Proof.lean ====
/-
  For each of the 64 batch rows `n` both programs return

      min over the 512 positions l  of  max over the 2048 forbidden points f  of
        min ( bump (A[n, l, 0] − B[0, 0, f]) ,  bump (A[n, l, 1] − B[0, 1, f]) ),

  where `bump d = σ(10·d) · σ(−10·d)` and σ is the logistic function; the maximum starts from −∞ and the minimum from
  +∞ (Proof/Spec.lean). At the ideal values the kernel's logistic operation is, by definition, the expression
  `1 / (1 + e^(−x))` the reference writes out, and both programs use the same two slope words, so the two sides
  differ only in how they arrange the reductions: the reference reduces each axis once (Proof/RefRead.lean), the kernel
  keeps a running minimum over sixteen blocks of 32 positions (Proof/KernelPay.lean, Proof/KernelFold.lean). The
  lower bounds of a running minimum are those of everything it has seen, which makes the two minima equal; no
  arithmetic law is used, so the precondition is never opened.
-/
import proofs.«103819_j23665269801120_1_alg».proof.Defs
import proofs.«103819_j23665269801120_1_alg».proof.Proof.Gen.Kernel.Frame
import proofs.«103819_j23665269801120_1_alg».proof.Proof.Gen.KernelIdeal.Value
import proofs.«103819_j23665269801120_1_alg».proof.Proof.Gen.Pre_finite_inputs
import proofs.«103819_j23665269801120_1_alg».proof.Proof.Gen.ReferenceIdeal.Run
import proofs.«103819_j23665269801120_1_alg».proof.Proof.RefRead
import proofs.«103819_j23665269801120_1_alg».proof.Proof.KernelFold
import Idealize.ShloMosaic.Adequacy
import Idealize.ShloMosaic.Init

noncomputable section

namespace Cert.Proof

open Idealize.ShloMosaic Idealize.ShloMosaic.TcCoe Idealize.SL.Sem Idealize.ShloMosaic.ValueIdx

/-- The idealized kernel terminates without a fault and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- On memories that agree on `A` and `B`, the reference's result array and the kernel's output array are the same
    function: at (n, 0) both are the smallest position value of row `n`. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hA : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (hB : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Read.val_main_v29 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
      = Cert.KernelIdeal.Value.G2 m c := by
  funext (i : Cert.KernelIdeal.S64x1.Idx)
  obtain ⟨n, u, rfl⟩ : ∃ (n : Fin 64) (u : Fin 1), i = ix2 n u := ⟨i 0, i 1, eq_ix2 i⟩
  rw [hA, hB]
  exact (Cert.ReferenceIdeal.RefValue.reference_at _ _ n u).trans (Cert.KernelIdeal.Fold.output_at m c n u).symm

/-- Both idealized programs end, with equal results. -/
theorem algebraic_KernelIdeal_ReferenceIdeal : algebraic_KernelIdeal_ReferenceIdeal := by
  intro m ρ m' ρ' _ hagree
  refine ⟨fun c => Cert.KernelIdeal.Value.G2 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  exact (h c).1.trans ((Cert.ReferenceIdeal.Read.val_main_v29_eq _ _).trans
    (results_agree m m' c (hagree c).1 (hagree c).2))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
